-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S2048x1 .f32) (main_arg8 : FVec F S1 .f32) (main_v33 : IVec S_ 1) : IVec S_ 1 :=
  let main_v34 : FVec F S2048x1 .f32 := Host.absf main_arg7
  let main_cst_12 : FVec F S_ .f32 := constant S_ .f32 0x7F800000#32
  let main_v35 : FVec F S2048x1 .f32 := broadcastInDim S2048x1 ![] bcast_S_S2048x1 main_cst_12
  let main_v36 : IVec S2048x1 1 := cmpf .olt main_v34 main_v35
  let main_c_13 : IVec S_ 1 := constantI S_ 1 1#1
  let main_v37 : IVec S_ 1 := (fun x v => Host.reduce IntOp.andi x v reducesTo_S2048x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S2048 .f32) (main_arg5 : FVec F S2048x2048 .f32) (main_arg6 : FVec F S2048 .f32) (main_arg7 : FVec F S2048x1 .f32) (main_arg8 : FVec F S1 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S16384x256 .f32) (main_arg1 : FVec F S1024x256 .f32) (main_arg2 : FVec F S1024 .f32) (main_arg3 : FVec F S1024x2048 .f32) (main_arg4 : FVec F S2048 .f32) (main_arg5 : FVec F S2048x2048 .f32) (main_arg6 : FVec F S2048 .f32) (main_arg7 : FVec F S2048x1 .f32) (main_arg8 : FVec F S1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_v13 main_v16
-- ==== Kernel.lean ====
abbrev S16384x256 : Shape := ⟨2, ![16384, 256]⟩
abbrev S1024x256 : Shape := ⟨2, ![1024, 256]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S1x1024 : Shape := ⟨2, ![1, 1024]⟩
abbrev S1x2048 : Shape := ⟨2, ![1, 2048]⟩
abbrev S1x1 : Shape := ⟨2, ![1, 1]⟩
abbrev S16384x1 : Shape := ⟨2, ![16384, 1]⟩
abbrev S1024x1 : Shape := ⟨2, ![1024, 1]⟩
abbrev S1024x1024 : Shape := ⟨2, ![1024, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x1, .f32⟩
  | .hbm, ⟨8, _⟩ => ⟨S1, .f32⟩
  | .hbm, ⟨9, _⟩ => ⟨S16384x256, .bf16⟩
  | .hbm, ⟨10, _⟩ => ⟨S1024x256, .bf16⟩
  | .hbm, ⟨11, _⟩ => ⟨S1024x2048, .bf16⟩
  | .hbm, ⟨12, _⟩ => ⟨S2048x2048, .bf16⟩
  | .hbm, ⟨13, _⟩ => ⟨S2048x1, .bf16⟩
  | .hbm, ⟨14, _⟩ => ⟨S1x1024, .f32⟩
  | .hbm, ⟨15, _⟩ => ⟨S1x2048, .f32⟩
  | .hbm, ⟨16, _⟩ => ⟨S1x2048, .f32⟩
  | .hbm, ⟨17, _⟩ => ⟨S1x1, .f32⟩
  | .hbm, ⟨18, _⟩ => ⟨S16384x1, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x1, .bf16⟩
  | .local _ .vmem, ⟨9, _⟩ => ⟨S1x1, .f32⟩
  | .local _ .vmem, ⟨10, _⟩ => ⟨S1024x1, .f32⟩
  | .local _ .vmem, ⟨11, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S1024_S1x1024 : S1024.ShapeCasts S1x1024
  shapeCasts_S2048_S1x2048 : S2048.ShapeCasts S1x2048
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x256_S1024x256_S1024x1024_1_1_0_0_n_n_wf : DotDims.WF S1024x256 S1024x256 S1024x1024 [1] [1] [0] [0] [] []
  dot_S1024x1024_S1024x2048_S1024x2048_1_0_0_1_n_n_wf : DotDims.WF S1024x1024 S1024x2048 S1024x2048 [1] [0] [0] [1] [] []
  dot_S1024x2048_S2048x2048_S1024x2048_1_0_0_1_n_n_wf : DotDims.WF S1024x2048 S2048x2048 S1024x2048 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S2048x1.size a
  hwx0_7 : ∀ i : grid0.Coords, EltTy.bits .bf16 = 32 ∨ (Rect.block (s := S2048x1) S2048x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S16384x1.size a
  hwx0_9 : ∀ i : grid0.Coords, EltTy.bits .f32 = 32 ∨ (Rect.block (s := S16384x1) S1024x1.size (cc0_transform_9 i) (hinb0_9 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S256x1024 : Shape := ⟨2, ![256, 1024]⟩
abbrev S16384x2048 : Shape := ⟨2, ![16384, 2048]⟩
abbrev S1x2048 : Shape := ⟨2, ![1, 2048]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x1, .f32⟩
  | .hbm, ⟨8, _⟩ => ⟨S1, .f32⟩
  | .hbm, ⟨9, _⟩ => ⟨S16384x256, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S256x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x1, .f32⟩
  | .hbm, ⟨50, _⟩ => ⟨S1x1, .f32⟩
  | .hbm, ⟨51, _⟩ => ⟨S16384x1, .f32⟩
  | .hbm, ⟨52, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  bcast_S_S1x1024 : S_.BroadcastsInDim S1x1024 (![] : Fin 0 → Fin S1x1024.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x256_S256x1024_S16384x1024_1_0_0_1_n_n_wf : DotDims.WF S16384x256 S256x1024 S16384x1024 [1] [0] [0] [1] [] []
  dot_S16384x1024_S1024x2048_S16384x2048_1_0_0_1_n_n_wf : DotDims.WF S16384x1024 S1024x2048 S16384x2048 [1] [0] [0] [1] [] []
  dot_S16384x2048_S2048x2048_S16384x2048_1_0_0_1_n_n_wf : DotDims.WF S16384x2048 S2048x2048 S16384x2048 [1] [0] [0] [1] [] []
  dot_S16384x2048_S2048x1_S16384x1_1_0_0_1_n_n_wf : DotDims.WF S16384x2048 S2048x1 S16384x1 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.LibLayout.lean ====
/-
  Operations of rank-two arrays read at an index given by its two coordinates, at the exact
  instance (floats are extended reals): a vector cast to a column, a column broadcast over
  columns, the sum of a matrix's rows, and the two matrix products with one contracted axis —
  rows by columns (M×K by K×N) and rows by rows (M×K by N×K). Each is the library's reading of
  the operation with both indices written by coordinates, so that it applies by unification.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutAt

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix along its rows (axis 1 reduced), read at row `p`: the sum over the columns. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

section Products
variable {M K N : ℕ} {φ₁ φ₂ : FTy}

theorem plain_lhs_0 (i : (⟨2, ![M, N]⟩ : Shape).Idx) (q : (DotDims.plain M K N).contr.Idx) :
    ((DotDims.plain M K N).lhsIdx i q 0).val = (i 0).val := rfl
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := rfl

/-- A product of an `M×K` by a `K×N` matrix into the zero accumulator, read at `(p, q)`: the sum over the
    contracted axis of the left operand's row `p` times the right operand's column `q`. -/
theorem matmul_plain_zero_apply (prec : Option ContractPrecision) (l : FVec Ideal ⟨2, ![M, K]⟩ φ₁)
    (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

theorem transposedRhs_lhs_0 (i : (⟨2, ![M, N]⟩ : Shape).Idx) (q : (DotDims.transposedRhs M K N).contr.Idx) :
    ((DotDims.transposedRhs M K N).lhsIdx i q 0).val = (i 0).val := rfl
theorem transposedRhs_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := rfl
theorem transposedRhs_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an `M×K` matrix by an `N×K` one contracted on its LAST axis, into the zero accumulator, read at
    `(p, q)`: the sum over the contracted axis of the left operand's row `p` times the right operand's row `q`. -/
theorem matmul_transposedRhs_zero_apply (prec : Option ContractPrecision) (l : FVec Ideal ⟨2, ![M, K]⟩ φ₁)
    (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact transposedRhs_lhs_0 _ _
      | ⟨1, _⟩ => exact (transposedRhs_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact transposedRhs_rhs_0 _ _
      | ⟨1, _⟩ => exact (transposedRhs_rhs_1 _ _).trans hk)
  rw [el, er]

/-- A dense layer with a ReLU, as a kernel body spells it — a product with a weight block into the zero accumulator,
    a one-row bias broadcast over the rows, the maximum with the zero word, the result narrowed (the identity here) —
    read at `(p, q)`, the left operand's row `p` being known entry by entry (`hl`). -/
theorem dense_relu_at (D : DotDims ⟨2, ![M, K]⟩ ⟨2, ![K, N]⟩ ⟨2, ![M, N]⟩) (hD : D = DotDims.plain M K N)
    (prec : Option ContractPrecision) (l : FVec Ideal ⟨2, ![M, K]⟩ φ₁) (w : FVec Ideal ⟨2, ![K, N]⟩ φ₂)
    (hw : (⟨2, ![K, N]⟩ : Shape).ShapeCasts ⟨2, ![K, N]⟩) (bias : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (hlt : FTy.bits .bf16 < FTy.bits .f32) (p : Fin M) (q : Fin N) (L : Fin K → EReal) (hl : ∀ k, l (ix2 p k) = L k) :
    (truncf .bf16 (maximumf (addf (matmul D prec l (shapeCast ⟨2, ![K, N]⟩ w hw) (constant ⟨2, ![M, N]⟩ .f32 0x00000000#32))
        (broadcastTo ⟨2, ![M, N]⟩ (shapeCast ⟨2, ![1, N]⟩ bias hb) hbc))
        (broadcast ⟨2, ![M, N]⟩ (Scalar.ofBits .f32 0x00000000#32))) hlt : FVec Ideal ⟨2, ![M, N]⟩ .bf16) (ix2 p q)
      = max ((∑ k, L k * w (ix2 k q)) + bias (ix2 (0 : Fin 1) q)) (Ideal.ofBits .f32 0x00000000#32) := by
  subst hD
  show max (FloatOps.matmul (DotDims.plain M K N) prec l (shapeCast ⟨2, ![K, N]⟩ w hw) (constant ⟨2, ![M, N]⟩ .f32 0x00000000#32) (ix2 p q)
    + broadcastTo ⟨2, ![M, N]⟩ (shapeCast ⟨2, ![1, N]⟩ bias hb) hbc (ix2 p q)) (Ideal.ofBits .f32 0x00000000#32) = _
  rw [shapeCast_self, shapeCast_self, matmul_plain_zero_apply, broadcastTo_1b_ab_apply]
  simp only [hl]

/-- The same layer without the ReLU: the product plus the bias. -/
theorem dense_at (D : DotDims ⟨2, ![M, K]⟩ ⟨2, ![K, N]⟩ ⟨2, ![M, N]⟩) (hD : D = DotDims.plain M K N)
    (prec : Option ContractPrecision) (l : FVec Ideal ⟨2, ![M, K]⟩ φ₁) (w : FVec Ideal ⟨2, ![K, N]⟩ φ₂)
    (hw : (⟨2, ![K, N]⟩ : Shape).ShapeCasts ⟨2, ![K, N]⟩) (bias : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (p : Fin M) (q : Fin N) (L : Fin K → EReal) (hl : ∀ k, l (ix2 p k) = L k) :
    addf (matmul D prec l (shapeCast ⟨2, ![K, N]⟩ w hw) (constant ⟨2, ![M, N]⟩ .f32 0x00000000#32))
        (broadcastTo ⟨2, ![M, N]⟩ (shapeCast ⟨2, ![1, N]⟩ bias hb) hbc) (ix2 p q)
      = (∑ k, L k * w (ix2 k q)) + bias (ix2 (0 : Fin 1) q) := by
  subst hD
  show FloatOps.matmul (DotDims.plain M K N) prec l (shapeCast ⟨2, ![K, N]⟩ w hw) (constant ⟨2, ![M, N]⟩ .f32 0x00000000#32) (ix2 p q)
    + broadcastTo ⟨2, ![M, N]⟩ (shapeCast ⟨2, ![1, N]⟩ bias hb) hbc (ix2 p q) = _
  rw [shapeCast_self, shapeCast_self, matmul_plain_zero_apply, broadcastTo_1b_ab_apply]
  simp only [hl]

end Products

end Cert.LayoutAt

end
-- ==== Proof.Spec.lean ====
/-
  The function both programs compute, on the extended reals, one batch row at a time.

  For a row `x` of 256 features and parameters `P` (1024 centres `c_r` with widths `σ_r`, then three affine layers):
    d_r   = (Σ_k x_k² + Σ_k c_{r,k}²) − 2·Σ_k x_k·c_{r,k}         the squared distance to centre r, expanded
    φ_r   = exp ((0 − d_r) / ((2·σ_r)·σ_r))                        the Gaussian feature
    h¹_j  = max (Σ_r φ_r·W1_{r,j} + b1_j) 0
    h²_j  = max (Σ_i h¹_i·W2_{i,j} + b2_j) 0
    out   = Σ_i h²_i·W3_i + b3.
  The constants 2 and 0 are kept as the float words both programs print; only the zero word is ever evaluated.
  Written the other way the same function has `0 + Σ` for each sum of squares (a sum started from the zero word),
  `−d_r` for `0 − d_r` and `2·(σ_r·σ_r)` for `(2·σ_r)·σ_r`: `feature_alt` says the two spellings agree on every
  extended real, by the monoid laws alone (no finiteness is used).
-/
import Idealize.ShloMosaic.Lib.ValueIdx
import Idealize.ShloMosaic.PureOps.Ideal.Laws

noncomputable section

namespace Cert.RbfMlp

open Idealize.ShloMosaic Idealize.ShloMosaic.ValueIdx

/-- The float word of 2.0, read at the exact instance. -/
abbrev two : EReal := Ideal.ofBits .f32 0x40000000#32
/-- The float word of 0.0, read at the exact instance. -/
abbrev zero : EReal := Ideal.ofBits .f32 0x00000000#32

theorem zero_eq : zero = 0 := Ideal.ofBits_zero_f32

/-- The network's parameters, entry by entry. -/
@[ext] structure Params where
  centers : Fin 1024 → Fin 256 → EReal
  sigma : Fin 1024 → EReal
  w1 : Fin 1024 → Fin 2048 → EReal
  b1 : Fin 2048 → EReal
  w2 : Fin 2048 → Fin 2048 → EReal
  b2 : Fin 2048 → EReal
  w3 : Fin 2048 → EReal
  b3 : EReal

variable (P : Params) (x : Fin 256 → EReal)

/-- The squared distance from the row to centre `r`, expanded: ‖x‖² + ‖c_r‖² − 2·⟨x, c_r⟩. -/
def sqDist (r : Fin 1024) : EReal :=
  ((∑ k, x k * x k) + ∑ k, P.centers r k * P.centers r k) - two * ∑ k, x k * P.centers r k

/-- The Gaussian feature of centre `r`. -/
def feature (r : Fin 1024) : EReal :=
  Ideal.exp (Ideal.div (zero - sqDist P x r) (two * P.sigma r * P.sigma r))

/-- The first hidden layer. -/
def hidden1 (j : Fin 2048) : EReal := max ((∑ r, feature P x r * P.w1 r j) + P.b1 j) zero

/-- The second hidden layer. -/
def hidden2 (j : Fin 2048) : EReal := max ((∑ i, hidden1 P x i * P.w2 i j) + P.b2 j) zero

/-- The row's output. -/
def out : EReal := (∑ i, hidden2 P x i * P.w3 i) + P.b3

/-- The other spelling of the feature: each sum of squares started from the zero word, the distance negated,
    the width squared before it is doubled. -/
theorem feature_alt (r : Fin 1024) :
    Ideal.exp (Ideal.div
        (-(((zero + ∑ k, x k * x k) + (zero + ∑ k, P.centers r k * P.centers r k)) - two * ∑ k, x k * P.centers r k))
        (two * (P.sigma r * P.sigma r)))
      = feature P x r := by
  unfold feature sqDist
  rw [zero_eq, zero_add, zero_add, zero_sub, mul_assoc]

/-- The parameters read off arrays of the shapes the programs' arguments have. -/
def paramsOf (c : (⟨2, ![1024, 256]⟩ : Shape).Idx → EReal) (s : (⟨1, ![1024]⟩ : Shape).Idx → EReal)
    (w1 : (⟨2, ![1024, 2048]⟩ : Shape).Idx → EReal) (b1 : (⟨1, ![2048]⟩ : Shape).Idx → EReal)
    (w2 : (⟨2, ![2048, 2048]⟩ : Shape).Idx → EReal) (b2 : (⟨1, ![2048]⟩ : Shape).Idx → EReal)
    (w3 : (⟨2, ![2048, 1]⟩ : Shape).Idx → EReal) (b3 : (⟨1, ![1]⟩ : Shape).Idx → EReal) : Params where
  centers r k := c (ix2 r k)
  sigma r := s (ix1 r)
  w1 r j := w1 (ix2 r j)
  b1 j := b1 (ix1 j)
  w2 i j := w2 (ix2 i j)
  b2 j := b2 (ix1 j)
  w3 i := w3 (ix2 i (0 : Fin 1))
  b3 := b3 (ix1 (0 : Fin 1))

/-- The whole result: row `b` of the [16384, 1] output is `out` of row `b` of the input. -/
def result (P : Params) (xs : (⟨2, ![16384, 256]⟩ : Shape).Idx → EReal) : (⟨2, ![16384, 1]⟩ : Shape).Idx → EReal :=
  fun i => out P fun k => xs (ix2 (i 0) k)

end Cert.RbfMlp

end
-- ==== Proof.KernelBody.lean ====
/-
  The kernel body at one row of its block. The body computes, for the 1024 rows of the input block it is given and the
  parameter blocks (each the whole parameter array), the Gaussian features of every (row, centre) pair and then the
  three layers; read at row `p` each stage depends on row `p` of the input block alone, and is the specification's
  function of that row: the layout operations (casts to a column, the transpose of the column of ‖c_r‖², the
  broadcasts) only place ‖x_p‖² and ‖c_r‖² at (p, r), the row sums are sums over the 256 features, and each matrix
  product is the sum over its contracted axis.
-/
import proofs.«171533_j1915555414708_1_alg».proof.Proof.Gen.KernelIdeal.Skeleton
import proofs.«171533_j1915555414708_1_alg».proof.Proof.LibLayout
import proofs.«171533_j1915555414708_1_alg».proof.Proof.Spec

noncomputable section

namespace Cert.KernelIdeal.Body

open Cert.KernelIdeal Cert.KernelIdeal.Gen Idealize.ShloMosaic Idealize.ShloMosaic.ValueIdx
open Cert.RbfMlp Cert.LayoutAt

variable (x0 : Vec Ideal S1024x256 .bf16) (x1 : Vec Ideal S1024x256 .bf16) (x2 : Vec Ideal S1x1024 .f32)
  (x3 : Vec Ideal S1024x2048 .bf16) (x4 : Vec Ideal S1x2048 .f32) (x5 : Vec Ideal S2048x2048 .bf16)
  (x6 : Vec Ideal S1x2048 .f32) (x7 : Vec Ideal S2048x1 .bf16) (x8 : Vec Ideal S1x1 .f32)

/-- The parameters as the body finds them in its blocks: the widths and the biases lie in one-row blocks. -/
def blockParams : Params where
  centers r k := x1 (ix2 r k)
  sigma r := x2 (ix2 (0 : Fin 1) r)
  w1 r j := x3 (ix2 r j)
  b1 j := x4 (ix2 (0 : Fin 1) j)
  w2 i j := x5 (ix2 i j)
  b2 j := x6 (ix2 (0 : Fin 1) j)
  w3 i := x7 (ix2 i (0 : Fin 1))
  b3 := x8 (ix2 (0 : Fin 1) (0 : Fin 1))

/-- Row `p` of the input block. -/
abbrev brow (p : Fin 1024) : Fin 256 → EReal := fun k => x0 (ix2 p k)

theorem dotXC_eq : dot_S1024x256_S1024x256_S1024x1024_1_1_0_0_n_n = DotDims.transposedRhs 1024 256 1024 := rfl
theorem dotW1_eq : dot_S1024x1024_S1024x2048_S1024x2048_1_0_0_1_n_n = DotDims.plain 1024 1024 2048 := rfl
theorem dotW2_eq : dot_S1024x2048_S2048x2048_S1024x2048_1_0_0_1_n_n = DotDims.plain 1024 2048 2048 := rfl
theorem dotW3_eq : dot_S1024x2048_S2048x1_S1024x1_1_0_0_1_n_n = DotDims.plain 1024 2048 1 := rfl

theorem exp_at {s : Shape} {φ : FTy} (a : FVec Ideal s φ) (i : s.Idx) : exp a i = Ideal.exp (a i) := rfl

/-- The body's row sums, at row `p`: the sum over the 256 features. -/
theorem rowSum_at (X : FVec Ideal S1024x256 .f32) (p : Fin 1024) :
    multiReduction .add [1] S1024 X 0x00000000#32 reduces_S1024x256_S1024 (.inl rfl) rfl (ix1 p) = ∑ k : Fin 256, X (ix2 p k) :=
  multiReduction_add_rows_apply X _ _ _ _ p

/-- A vector of 1024 entries cast to a column and transposed to a row holds entry `r` at (0, r). -/
theorem colT_at (Y : FVec Ideal S1024 .f32) (r : Fin 1024) :
    transpose S1x1024 [1, 0] (shapeCast S1024x1 Y shapeCasts_S1024_S1024x1) transposes_S1024x1_p1_0_S1x1024 (ix2 (0 : Fin 1) r)
      = Y (ix1 r) :=
  (transpose_ix2_apply _ _ _ _).trans (shapeCast_a_a1_apply _ _ _ _)

/-- The first hidden layer's block at (p, j). -/
theorem hidden1_at (p : Fin 1024) (j : Fin 2048) :
    k0_pay2 x0 x1 x2 x3 x4 (ix2 p j) = hidden1 (blockParams x1 x2 x3 x4 x5 x6 x7 x8) (brow x0 p) j := by
  unfold k0_pay2
  dsimp only
  refine dense_relu_at _ dotW1_eq none _ _ _ _ _ _ _ p j (feature (blockParams x1 x2 x3 x4 x5 x6 x7 x8) (brow x0 p)) fun r => ?_
  simp only [shapeCast_self, dotXC_eq]
  simp only [truncf_apply, exp_at, divf_apply, subf_apply, addf_apply, mulf_apply, broadcast_apply, matmul,
    broadcastTo_a1_ab_apply, broadcastTo_1b_ab_apply, transpose_ix2_apply, shapeCast_a_a1_apply,
    multiReduction_add_rows_apply, matmul_transposedRhs_zero_apply, extf_apply]
  rw [rowSum_at, colT_at, rowSum_at]
  rfl

/-- The body's stored block at row `p` (its one column): the specification's output for row `p` of the input block. -/
theorem out_at (p : Fin 1024) (u : Fin 1) :
    k0_pay1 (k0_pay2 x0 x1 x2 x3 x4) x5 x6 x7 x8 (ix2 p u) = out (blockParams x1 x2 x3 x4 x5 x6 x7 x8) (brow x0 p) := by
  have hu : u = 0 := Fin.ext (by omega)
  subst hu
  unfold k0_pay1
  refine dense_at _ dotW3_eq none _ _ _ _ _ _ p (0 : Fin 1) (hidden2 (blockParams x1 x2 x3 x4 x5 x6 x7 x8) (brow x0 p)) fun i => ?_
  exact dense_relu_at _ dotW2_eq none _ _ _ _ _ _ _ p i (hidden1 (blockParams x1 x2 x3 x4 x5 x6 x7 x8) (brow x0 p))
    fun k => hidden1_at x0 x1 x2 x3 x4 x5 x6 x7 x8 p k

end Cert.KernelIdeal.Body

end
-- ==== Proof.KernelValue.lean ====
/-
  From blocks to the array. The grid's 16 points each take 1024 consecutive rows of the input (block `t` of the
  input array is rows 1024·t … 1024·t + 1023) and the whole of every parameter array, and write rows
  1024·t … 1024·t + 1023 of the result. The arrays the region finds are the arguments themselves: the conversions before
  it are the identity on extended reals and the reshapes only add a leading unit axis. So what point `t` writes back is
  block `t` of the specification's result of the arguments, and the 16 blocks cover the 16384 rows.
-/
import proofs.«171533_j1915555414708_1_alg».proof.Proof.Gen.KernelIdeal.Value
import proofs.«171533_j1915555414708_1_alg».proof.Proof.KernelBody
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx
open Cert.RbfMlp Cert.LayoutAt Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds: the arguments, the one-axis ones with a leading unit axis -/

theorem V_x (c : Dev nD) : (V m c main_v0 : S16384x256.Idx → EReal) = m ((c : Thread nD τ).loc main_arg0) := by
  dsimp only [V, hostOps0]; after_results; rfl
theorem V_centers (c : Dev nD) : (V m c main_v1 : S1024x256.Idx → EReal) = m ((c : Thread nD τ).loc main_arg1) := by
  dsimp only [V, hostOps0]; after_results; rfl
theorem V_w1 (c : Dev nD) : (V m c main_v2 : S1024x2048.Idx → EReal) = m ((c : Thread nD τ).loc main_arg3) := by
  dsimp only [V, hostOps0]; after_results; rfl
theorem V_w2 (c : Dev nD) : (V m c main_v3 : S2048x2048.Idx → EReal) = m ((c : Thread nD τ).loc main_arg5) := by
  dsimp only [V, hostOps0]; after_results; rfl
theorem V_w3 (c : Dev nD) : (V m c main_v4 : S2048x1.Idx → EReal) = m ((c : Thread nD τ).loc main_arg7) := by
  dsimp only [V, hostOps0]; after_results; rfl
theorem V_sigma (c : Dev nD) : (V m c main_v5 : S1x1024.Idx → EReal)
    = shapeCast S1x1024 (m ((c : Thread nD τ).loc main_arg2) : S1024.Idx → EReal) shapeCasts_S1024_S1x1024 := by
  dsimp only [V, hostOps0]; after_results; rfl
theorem V_b1 (c : Dev nD) : (V m c main_v6 : S1x2048.Idx → EReal)
    = shapeCast S1x2048 (m ((c : Thread nD τ).loc main_arg4) : S2048.Idx → EReal) shapeCasts_S2048_S1x2048 := by
  dsimp only [V, hostOps0]; after_results; rfl
theorem V_b2 (c : Dev nD) : (V m c main_v7 : S1x2048.Idx → EReal)
    = shapeCast S1x2048 (m ((c : Thread nD τ).loc main_arg6) : S2048.Idx → EReal) shapeCasts_S2048_S1x2048 := by
  dsimp only [V, hostOps0]; after_results; rfl
theorem V_b3 (c : Dev nD) : (V m c main_v8 : S1x1.Idx → EReal)
    = shapeCast S1x1 (m ((c : Thread nD τ).loc main_arg8) : S1.Idx → EReal) shapeCasts_S1_S1x1 := by
  dsimp only [V, hostOps0]; after_results; rfl

/-! ## The blocks at a point -/

/-- The printed index maps over the grid: the input's and the output's block index on the row axis is the point's
    number; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The input windows' blocks at point `t`, each at its literal type. -/
abbrev blk0 (c : Dev nD) (t : Fin cfg0.N) : Vec Ideal S1024x256 .bf16 := iblk m c 0 t
abbrev blk1 (c : Dev nD) (t : Fin cfg0.N) : Vec Ideal S1024x256 .bf16 := iblk m c 1 t
abbrev blk2 (c : Dev nD) (t : Fin cfg0.N) : Vec Ideal S1x1024 .f32 := iblk m c 2 t
abbrev blk3 (c : Dev nD) (t : Fin cfg0.N) : Vec Ideal S1024x2048 .bf16 := iblk m c 3 t
abbrev blk4 (c : Dev nD) (t : Fin cfg0.N) : Vec Ideal S1x2048 .f32 := iblk m c 4 t
abbrev blk5 (c : Dev nD) (t : Fin cfg0.N) : Vec Ideal S2048x2048 .bf16 := iblk m c 5 t
abbrev blk6 (c : Dev nD) (t : Fin cfg0.N) : Vec Ideal S1x2048 .f32 := iblk m c 6 t
abbrev blk7 (c : Dev nD) (t : Fin cfg0.N) : Vec Ideal S2048x1 .bf16 := iblk m c 7 t
abbrev blk8 (c : Dev nD) (t : Fin cfg0.N) : Vec Ideal S1x1 .f32 := iblk m c 8 t

/-- Row `p` of the input's block at point `t` is row 1024·t + p of the input. -/
theorem blk0_at (c : Dev nD) (t : Fin cfg0.N) (p : Fin 1024) (k : Fin 256) (b : Fin 16384) (hb : b.val = t.val * 1024 + p.val) :
    blk0 m c t (ix2 p k) = (m ((c : Thread nD τ).loc main_arg0) : S16384x256.Idx → EReal) (ix2 b k) := by
  unfold blk0 iblk
  rw [View.read_apply]
  show (V m c main_v0 : S16384x256.Idx → EReal) _ = _
  rw [V_x]
  refine congrArg _ (funext fun a => Fin.ext ?_)
  obtain ⟨e0, e1, -⟩ := idx_facts t
  match a with
  | ⟨0, _⟩ => show win0_0.index t (0 : Fin 2) * 1024 + 1 * p.val = b.val; rw [e0, hb]; omega
  | ⟨1, _⟩ => show win0_0.index t (1 : Fin 2) * 256 + 1 * k.val = k.val; rw [e1]; omega

/-- The centres' block is the centres' array. -/
theorem blk1_at (c : Dev nD) (t : Fin cfg0.N) (r : Fin 1024) (k : Fin 256) :
    blk1 m c t (ix2 r k) = (m ((c : Thread nD τ).loc main_arg1) : S1024x256.Idx → EReal) (ix2 r k) := by
  unfold blk1 iblk
  rw [View.read_apply]
  show (V m c main_v1 : S1024x256.Idx → EReal) _ = _
  rw [V_centers]
  refine congrArg _ (funext fun a => Fin.ext ?_)
  obtain ⟨-, -, e0, e1, -⟩ := idx_facts t
  match a with
  | ⟨0, _⟩ => show win0_1.index t (0 : Fin 2) * 1024 + 1 * r.val = r.val; rw [e0]; omega
  | ⟨1, _⟩ => show win0_1.index t (1 : Fin 2) * 256 + 1 * k.val = k.val; rw [e1]; omega

/-- The widths' one-row block holds width `r` at (0, r). -/
theorem blk2_at (c : Dev nD) (t : Fin cfg0.N) (r : Fin 1024) :
    blk2 m c t (ix2 (0 : Fin 1) r) = (m ((c : Thread nD τ).loc main_arg2) : S1024.Idx → EReal) (ix1 r) := by
  unfold blk2 iblk
  rw [View.read_apply]
  show (V m c main_v5 : S1x1024.Idx → EReal) _ = _
  rw [V_sigma]
  refine (congrArg (shapeCast S1x1024 (m ((c : Thread nD τ).loc main_arg2) : S1024.Idx → EReal) shapeCasts_S1024_S1x1024)
    (funext fun a => Fin.ext ?_)).trans (shapeCast_a_1a_apply _ _ (0 : Fin 1) r)
  obtain ⟨-, -, -, -, e0, e1, -⟩ := idx_facts t
  match a with
  | ⟨0, _⟩ => show win0_2.index t (0 : Fin 2) * 1 + 1 * (0 : Fin 1).val = (0 : Fin 1).val; rw [e0]; omega
  | ⟨1, _⟩ => show win0_2.index t (1 : Fin 2) * 1024 + 1 * r.val = r.val; rw [e1]; omega

/-- The first weights' block is their array. -/
theorem blk3_at (c : Dev nD) (t : Fin cfg0.N) (r : Fin 1024) (j : Fin 2048) :
    blk3 m c t (ix2 r j) = (m ((c : Thread nD τ).loc main_arg3) : S1024x2048.Idx → EReal) (ix2 r j) := by
  unfold blk3 iblk
  rw [View.read_apply]
  show (V m c main_v2 : S1024x2048.Idx → EReal) _ = _
  rw [V_w1]
  refine congrArg _ (funext fun a => Fin.ext ?_)
  obtain ⟨-, -, -, -, -, -, e0, e1, -⟩ := idx_facts t
  match a with
  | ⟨0, _⟩ => show win0_3.index t (0 : Fin 2) * 1024 + 1 * r.val = r.val; rw [e0]; omega
  | ⟨1, _⟩ => show win0_3.index t (1 : Fin 2) * 2048 + 1 * j.val = j.val; rw [e1]; omega

/-- The first bias's one-row block holds entry `j` at (0, j). -/
theorem blk4_at (c : Dev nD) (t : Fin cfg0.N) (j : Fin 2048) :
    blk4 m c t (ix2 (0 : Fin 1) j) = (m ((c : Thread nD τ).loc main_arg4) : S2048.Idx → EReal) (ix1 j) := by
  unfold blk4 iblk
  rw [View.read_apply]
  show (V m c main_v6 : S1x2048.Idx → EReal) _ = _
  rw [V_b1]
  refine (congrArg (shapeCast S1x2048 (m ((c : Thread nD τ).loc main_arg4) : S2048.Idx → EReal) shapeCasts_S2048_S1x2048)
    (funext fun a => Fin.ext ?_)).trans (shapeCast_a_1a_apply _ _ (0 : Fin 1) j)
  obtain ⟨-, -, -, -, -, -, -, -, e0, e1, -⟩ := idx_facts t
  match a with
  | ⟨0, _⟩ => show win0_4.index t (0 : Fin 2) * 1 + 1 * (0 : Fin 1).val = (0 : Fin 1).val; rw [e0]; omega
  | ⟨1, _⟩ => show win0_4.index t (1 : Fin 2) * 2048 + 1 * j.val = j.val; rw [e1]; omega

/-- The second weights' block is their array. -/
theorem blk5_at (c : Dev nD) (t : Fin cfg0.N) (i : Fin 2048) (j : Fin 2048) :
    blk5 m c t (ix2 i j) = (m ((c : Thread nD τ).loc main_arg5) : S2048x2048.Idx → EReal) (ix2 i j) := by
  unfold blk5 iblk
  rw [View.read_apply]
  show (V m c main_v3 : S2048x2048.Idx → EReal) _ = _
  rw [V_w2]
  refine congrArg _ (funext fun a => Fin.ext ?_)
  obtain ⟨-, -, -, -, -, -, -, -, -, -, e0, e1, -⟩ := idx_facts t
  match a with
  | ⟨0, _⟩ => show win0_5.index t (0 : Fin 2) * 2048 + 1 * i.val = i.val; rw [e0]; omega
  | ⟨1, _⟩ => show win0_5.index t (1 : Fin 2) * 2048 + 1 * j.val = j.val; rw [e1]; omega

/-- The second bias's one-row block holds entry `j` at (0, j). -/
theorem blk6_at (c : Dev nD) (t : Fin cfg0.N) (j : Fin 2048) :
    blk6 m c t (ix2 (0 : Fin 1) j) = (m ((c : Thread nD τ).loc main_arg6) : S2048.Idx → EReal) (ix1 j) := by
  unfold blk6 iblk
  rw [View.read_apply]
  show (V m c main_v7 : S1x2048.Idx → EReal) _ = _
  rw [V_b2]
  refine (congrArg (shapeCast S1x2048 (m ((c : Thread nD τ).loc main_arg6) : S2048.Idx → EReal) shapeCasts_S2048_S1x2048)
    (funext fun a => Fin.ext ?_)).trans (shapeCast_a_1a_apply _ _ (0 : Fin 1) j)
  obtain ⟨-, -, -, -, -, -, -, -, -, -, -, -, e0, e1, -⟩ := idx_facts t
  match a with
  | ⟨0, _⟩ => show win0_6.index t (0 : Fin 2) * 1 + 1 * (0 : Fin 1).val = (0 : Fin 1).val; rw [e0]; omega
  | ⟨1, _⟩ => show win0_6.index t (1 : Fin 2) * 2048 + 1 * j.val = j.val; rw [e1]; omega

/-- The last weights' block is their array. -/
theorem blk7_at (c : Dev nD) (t : Fin cfg0.N) (i : Fin 2048) :
    blk7 m c t (ix2 i (0 : Fin 1)) = (m ((c : Thread nD τ).loc main_arg7) : S2048x1.Idx → EReal) (ix2 i (0 : Fin 1)) := by
  unfold blk7 iblk
  rw [View.read_apply]
  show (V m c main_v4 : S2048x1.Idx → EReal) _ = _
  rw [V_w3]
  refine congrArg _ (funext fun a => Fin.ext ?_)
  obtain ⟨-, -, -, -, -, -, -, -, -, -, -, -, -, -, e0, e1, -⟩ := idx_facts t
  match a with
  | ⟨0, _⟩ => show win0_7.index t (0 : Fin 2) * 2048 + 1 * i.val = i.val; rw [e0]; omega
  | ⟨1, _⟩ => show win0_7.index t (1 : Fin 2) * 1 + 1 * (0 : Fin 1).val = (0 : Fin 1).val; rw [e1]; omega

/-- The last bias's one-entry block holds it at (0, 0). -/
theorem blk8_at (c : Dev nD) (t : Fin cfg0.N) :
    blk8 m c t (ix2 (0 : Fin 1) (0 : Fin 1)) = (m ((c : Thread nD τ).loc main_arg8) : S1.Idx → EReal) (ix1 (0 : Fin 1)) := by
  unfold blk8 iblk
  rw [View.read_apply]
  show (V m c main_v8 : S1x1.Idx → EReal) _ = _
  rw [V_b3]
  refine (congrArg (shapeCast S1x1 (m ((c : Thread nD τ).loc main_arg8) : S1.Idx → EReal) shapeCasts_S1_S1x1)
    (funext fun a => Fin.ext ?_)).trans (shapeCast_a_1a_apply _ _ (0 : Fin 1) (0 : Fin 1))
  obtain ⟨-, -, -, -, -, -, -, -, -, -, -, -, -, -, -, -, e0, e1, -⟩ := idx_facts t
  match a with
  | ⟨0, _⟩ => show win0_8.index t (0 : Fin 2) * 1 + 1 * (0 : Fin 1).val = (0 : Fin 1).val; rw [e0]; omega
  | ⟨1, _⟩ => show win0_8.index t (1 : Fin 2) * 1 + 1 * (0 : Fin 1).val = (0 : Fin 1).val; rw [e1]; omega

/-! ## What a point writes back -/

/-- The parameters read off the argument arrays. -/
abbrev params (c : Dev nD) : Params :=
  paramsOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The specification's result of the argument arrays: what the result array ends holding. -/
abbrev resultArr (c : Dev nD) : S16384x1.Idx → EReal := result (params m c) (m ((c : Thread nD τ).loc main_arg0))

/-- At every point the body's parameter blocks hold the parameters. -/
theorem params_eq (c : Dev nD) (t : Fin cfg0.N) :
    Body.blockParams (blk1 m c t) (blk2 m c t) (blk3 m c t) (blk4 m c t) (blk5 m c t) (blk6 m c t) (blk7 m c t) (blk8 m c t)
      = params m c :=
  Params.ext (funext fun r => funext fun k => blk1_at m c t r k) (funext fun r => blk2_at m c t r)
    (funext fun r => funext fun j => blk3_at m c t r j) (funext fun j => blk4_at m c t j)
    (funext fun i => funext fun j => blk5_at m c t i j) (funext fun j => blk6_at m c t j)
    (funext fun i => blk7_at m c t i) (blk8_at m c t)

/-- Row `p` of what point `t` stores is the result's row 1024·t + p. -/
theorem stored_at (c : Dev nD) (t : Fin cfg0.N) (p : Fin 1024) (u : Fin 1) (b : Fin 16384) (hb : b.val = t.val * 1024 + p.val) :
    k0_pay1 (k0_pay2 (blk0 m c t) (blk1 m c t) (blk2 m c t) (blk3 m c t) (blk4 m c t)) (blk5 m c t) (blk6 m c t) (blk7 m c t)
      (blk8 m c t) (ix2 p u) = resultArr m c (ix2 b u) := by
  rw [Body.out_at, params_eq]
  show out (params m c) _ = out (params m c) _
  exact congrArg (out (params m c)) (funext fun k => blk0_at m c t p k b hb)

/-- A block of 1024 rows whose row `p` is row 1024·t + p of an array, cut to what the write-back at point `t` moves (all of
    it), is that array read through point `t`'s block of the result window. -/
theorem cut_eq_read (t : Fin cfg0.N) (B : Vec Ideal S1024x1 .f32) (Gf : S16384x1.Idx → EReal)
    (h : ∀ (p : Fin 1024) (u : Fin 1) (b : Fin 16384), b.val = t.val * 1024 + p.val → B (ix2 p u) = Gf (ix2 b u)) :
    (cfg0.win 9).cut (grid0.coords t) B = ((cfg0.win 9).blk t).view.read (Elt Ideal) Gf := by
  funext j
  rw [View.read_apply]
  obtain ⟨-, -, -, -, -, -, -, -, -, -, -, -, -, -, -, -, -, -, e0, e1⟩ := idx_facts t
  have hN : cfg0.N = 16 := N_0
  have ht : t.val < 16 := by have := t.isLt; omega
  have hj0 : (j 0).val < 1024 := (j 0).isLt
  have hj1 : (j 1).val < 1 := (j 1).isLt
  have e : (cfg0.win 9).xinj (grid0.coords t) j = ix2 (⟨(j 0).val, hj0⟩ : Fin 1024) (⟨(j 1).val, hj1⟩ : Fin 1) :=
    funext fun a => Fin.ext (by match a with | ⟨0, _⟩ => rfl | ⟨1, _⟩ => rfl)
  show B ((cfg0.win 9).xinj (grid0.coords t) j) = Gf (((cfg0.win 9).blk t).view.emb j)
  rw [e]
  refine (h ⟨(j 0).val, hj0⟩ ⟨(j 1).val, hj1⟩ ⟨t.val * 1024 + (j 0).val, by omega⟩ rfl).trans
    (congrArg Gf (funext fun a => Fin.ext ?_))
  match a with
  | ⟨0, _⟩ => show t.val * 1024 + (j 0).val = win0_9.index t (0 : Fin 2) * 1024 + 1 * (j 0).val; rw [e0]; omega
  | ⟨1, _⟩ => show (j 1).val = win0_9.index t (1 : Fin 2) * 1 + 1 * (j 1).val; rw [e1]; omega

/-- WHAT POINT `t` WRITES BACK is block `t` of the result. -/
theorem flushed_eq (c : Dev nD) (t : Fin cfg0.N) :
    (dats m 0 c).flushed 9 t = ((cfg0.win 9).blk t).view.read (Elt Ideal) (resultArr m c) := by
  rw [flushed9]
  unfold out0_9
  rw [View.canon_unit_zero hz]
  simp only [View.ld_unit_zero (S := S1024x256) hz, View.ld_unit_zero (S := S1x1024) hz, View.ld_unit_zero (S := S1024x2048) hz,
    View.ld_unit_zero (S := S1x2048) hz, View.ld_unit_zero (S := S2048x2048) hz, View.ld_unit_zero (S := S2048x1) hz,
    View.ld_unit_zero (S := S1x1) hz]
  exact cut_eq_read t _ _ fun p u b hb => stored_at m c t p u b hb

/-! ## The array after the run -/

/-- An index of the result array is in point `t`'s block iff each coordinate is in the block's range on its axis. -/
theorem mem_blk (t : Fin cfg0.N) (i : S16384x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v9).slice (win0_9.rect t)).set ↔ _
  rw [View.set_slice_whole, Rect.mem_set_unit]
  exact Iff.rfl

/-- Row `b` lies in the block of point `b / 1024`: the blocks cover the array. -/
theorem cover (i : S16384x1.Idx) : ∃ t : Fin cfg0.N, (cfg0.win 9).flush t = true ∧ i ∈ ((cfg0.win 9).blk t).view.set := by
  have hN : cfg0.N = 16 := N_0
  have hi0 : (i 0).val < 16384 := (i 0).isLt
  have hi1 : (i 1).val < 1 := (i 1).isLt
  obtain ⟨t, ht⟩ : ∃ t : Fin cfg0.N, t.val = (i 0).val / 1024 := ⟨⟨(i 0).val / 1024, by omega⟩, rfl⟩
  refine ⟨t, flush0_9 t, ?_⟩
  rw [mem_blk]
  obtain ⟨-, -, -, -, -, -, -, -, -, -, -, -, -, -, -, -, -, -, e0, e1⟩ := idx_facts t
  intro a
  match a with
  | ⟨0, _⟩ =>
    show win0_9.index t (0 : Fin 2) * 1024 ≤ (i 0).val ∧ (i 0).val < win0_9.index t (0 : Fin 2) * 1024 + 1024
    rw [e0]; omega
  | ⟨1, _⟩ =>
    show win0_9.index t (1 : Fin 2) * 1 ≤ (i 1).val ∧ (i 1).val < win0_9.index t (1 : Fin 2) * 1 + 1
    rw [e1]; omega

/-- THE ARRAY after the run: the specification's result of the arguments. -/
theorem final (c : Dev nD) : (dats m 0 c).arrAt 9 cfg0.N = resultArr m c :=
  (dats m 0 c).arrAt_eq_of_cover 9 (resultArr m c) (fun t _ => flushed_eq m c t) cover

/-- The run, read: the result array at the specification's result of the arguments, the arguments unchanged. -/
theorem run : θ_run defs (onTc (τ := τ) (main (F := Ideal))) ⟨m, fun _ => 0, ρ⟩ fun r => ∀ c : Dev nD,
      r.2.mem ((c : Thread nD τ).loc main_v9) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefValue.lean ====
/-
  The reference, read row by row: its result at row `b` is `out` of row `b` of the input. Stage by stage — the
  Gaussian features, the two hidden layers, the last affine map — each generated read-at-an-index lemma is rewritten and
  the composed index functions are identified with plain coordinates; the reference's spelling of the feature (sums of
  squares started from the zero word, a negation, the width squared first) is the specification's by `feature_alt`.
-/
import proofs.«171533_j1915555414708_1_alg».proof.Proof.Gen.ReferenceIdeal.Read
import proofs.«171533_j1915555414708_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.RbfMlp

variable (x0 : (⟨S16384x256, .f32⟩ : BufTy).Contents (Elt Ideal)) (x1 : (⟨S1024x256, .f32⟩ : BufTy).Contents (Elt Ideal))
  (x2 : (⟨S1024, .f32⟩ : BufTy).Contents (Elt Ideal)) (x3 : (⟨S1024x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal)) (x7 : (⟨S2048x1, .f32⟩ : BufTy).Contents (Elt Ideal))
  (x8 : (⟨S1, .f32⟩ : BufTy).Contents (Elt Ideal))

/-- Row `b` of the input. -/
abbrev row (b : Fin 16384) : Fin 256 → EReal := fun k => x0 (ix2 b k)

/-- The reference's Gaussian feature at (b, r). -/
theorem feature_at (b : Fin 16384) (r : Fin 1024) :
    val_main_v21 (F := Ideal) x0 x1 x2 (ix2 b r) = feature (paramsOf x1 x2 x3 x4 x5 x6 x7 x8) (row x0 b) r := by
  have e1 : ∀ k, idx_main_v1 (idx_main_v2 (idx_main_v6 (ix2 b r))) k = ix2 b k := fun k =>
    funext fun a => Fin.ext (by match a with | ⟨0, _⟩ => rfl | ⟨1, _⟩ => rfl)
  have e2 : ∀ k, idx_main_v4 (idx_main_v5 (idx_main_v7 (ix2 b r))) k = ix2 r k := fun k =>
    funext fun a => Fin.ext (by match a with | ⟨0, _⟩ => rfl | ⟨1, _⟩ => rfl)
  have e3 : ∀ k, lidx_main_v10 (ix2 b r) k = ix2 b k := fun k =>
    funext fun a => Fin.ext (by match a with | ⟨0, _⟩ => rfl | ⟨1, _⟩ => rfl)
  have e4 : ∀ k, idx_main_v9 (ridx_main_v10 (ix2 b r) k) = ix2 r k := fun k =>
    funext fun a => Fin.ext (by match a with | ⟨0, _⟩ => rfl | ⟨1, _⟩ => rfl)
  have e5 : idx_main_v15 (idx_main_v19 (ix2 b r)) = ix1 r :=
    funext fun a => Fin.ext (by match a with | ⟨0, _⟩ => rfl)
  rw [← feature_alt]
  simp only [val_main_v21_apply, val_main_v20_apply, val_main_v14_apply, val_main_v13_apply, val_main_v8_apply,
    val_main_v6_apply, val_main_v2_apply, val_main_v1_apply, val_main_v0_apply, val_main_cst_apply,
    val_main_v7_apply, val_main_v5_apply, val_main_v4_apply, val_main_v3_apply, val_main_cst_0_apply,
    val_main_v12_apply, val_main_v11_apply, val_main_cst_1_apply, val_main_v10_apply, val_main_v9_apply,
    val_main_v19_apply, val_main_v18_apply, val_main_v17_apply, val_main_cst_2_apply, val_main_v16_apply,
    val_main_v15_apply, e1, e2, e3, e4, e5,
    Ideal.mulf_def, Ideal.addf_def, Ideal.subf_def, Ideal.hostNegf_def, Ideal.negf_def, Ideal.hostDivf_def,
    Ideal.hostUnary_exp_def, Ideal.ofBits_def]
  rfl

/-- The reference's first hidden layer at (b, j). -/
theorem hidden1_at (b : Fin 16384) (j : Fin 2048) :
    val_main_v26 (F := Ideal) x0 x1 x2 x3 x4 (ix2 b j) = hidden1 (paramsOf x1 x2 x3 x4 x5 x6 x7 x8) (row x0 b) j := by
  have el : ∀ k, lidx_main_v22 (ix2 b j) k = ix2 b k := fun k =>
    funext fun a => Fin.ext (by match a with | ⟨0, _⟩ => rfl | ⟨1, _⟩ => rfl)
  have er : ∀ k, ridx_main_v22 (ix2 b j) k = ix2 k j := fun k =>
    funext fun a => Fin.ext (by match a with | ⟨0, _⟩ => rfl | ⟨1, _⟩ => rfl)
  have eb : idx_main_v23 (idx_main_v24 (ix2 b j)) = ix1 j :=
    funext fun a => Fin.ext (by match a with | ⟨0, _⟩ => rfl)
  simp only [val_main_v26_apply, val_main_v25_apply, val_main_v22_apply, val_main_v24_apply, val_main_v23_apply,
    val_main_call0_v0_apply, val_main_call0_cst_apply, el, er, eb, feature_at x0 x1 x2 x3 x4 x5 x6 x7 x8,
    Ideal.addf_def, Ideal.maximumf_def, Ideal.ofBits_def]
  rfl

/-- The reference's second hidden layer at (b, j). -/
theorem hidden2_at (b : Fin 16384) (j : Fin 2048) :
    val_main_v31 (F := Ideal) x0 x1 x2 x3 x4 x5 x6 (ix2 b j) = hidden2 (paramsOf x1 x2 x3 x4 x5 x6 x7 x8) (row x0 b) j := by
  have el : ∀ k, lidx_main_v27 (ix2 b j) k = ix2 b k := fun k =>
    funext fun a => Fin.ext (by match a with | ⟨0, _⟩ => rfl | ⟨1, _⟩ => rfl)
  have er : ∀ k, ridx_main_v27 (ix2 b j) k = ix2 k j := fun k =>
    funext fun a => Fin.ext (by match a with | ⟨0, _⟩ => rfl | ⟨1, _⟩ => rfl)
  have eb : idx_main_v28 (idx_main_v29 (ix2 b j)) = ix1 j :=
    funext fun a => Fin.ext (by match a with | ⟨0, _⟩ => rfl)
  simp only [val_main_v31_apply, val_main_v30_apply, val_main_v27_apply, val_main_v29_apply, val_main_v28_apply,
    val_main_call1_v0_apply, val_main_call1_cst_apply, el, er, eb, hidden1_at x0 x1 x2 x3 x4 x5 x6 x7 x8,
    Ideal.addf_def, Ideal.maximumf_def, Ideal.ofBits_def]
  rfl

/-- The reference's result is the specification's, row by row. -/
theorem result_eq :
    val_main_v35 (F := Ideal) x0 x1 x2 x3 x4 x5 x6 x7 x8 = result (paramsOf x1 x2 x3 x4 x5 x6 x7 x8) x0 := by
  funext i
  obtain ⟨b, u, rfl⟩ : ∃ (b : Fin 16384) (u : Fin 1), i = ix2 b u := ⟨i 0, i 1, eq_ix2 i⟩
  have hu : u = 0 := Fin.ext (by omega)
  subst hu
  have el : ∀ k, lidx_main_v32 (ix2 b (0 : Fin 1)) k = ix2 b k := fun k =>
    funext fun a => Fin.ext (by match a with | ⟨0, _⟩ => rfl | ⟨1, _⟩ => rfl)
  have er : ∀ k, ridx_main_v32 (ix2 b (0 : Fin 1)) k = ix2 k (0 : Fin 1) := fun k =>
    funext fun a => Fin.ext (by match a with | ⟨0, _⟩ => rfl | ⟨1, _⟩ => rfl)
  have eb : idx_main_v33 (idx_main_v34 (ix2 b (0 : Fin 1))) = ix1 (0 : Fin 1) :=
    funext fun a => Fin.ext (by match a with | ⟨0, _⟩ => rfl)
  simp only [val_main_v35_apply, val_main_v32_apply, val_main_v34_apply, val_main_v33_apply, el, er, eb,
    hidden2_at x0 x1 x2 x3 x4 x5 x6 x7 x8, Ideal.addf_def]
  rfl

end Cert.ReferenceIdeal.RefValue

end
-- ==== Proof.lean ====
/-
  The kernel computes, for each of 16384 input rows `x` (256 features), the Gaussian radial-basis features
  exp(−‖x − c_r‖² / (2σ_r²)) against 1024 centres — the squared distance expanded as ‖x‖² + ‖c_r‖² − 2⟨x, c_r⟩ — and feeds
  them through three affine layers with ReLUs between them (1024 → 2048 → 2048 → 1); the reference computes the same
  in plain array operations. On the extended reals the two are one function of the arguments (Proof/Spec.lean):
  narrowing and widening a float are the identity, each row sum and each matrix product is the same finite sum, the
  kernel's `0 − d` is the reference's `−d`, and the kernel's `(2σ)σ` is the reference's `2(σσ)` by associativity.
  No law used needs finiteness, so the precondition is never opened.

  The kernel's side: the body at one row of its block is the specification (Proof/KernelBody.lean, over the general
  index lemmas of Proof/LibLayout.lean); the 16 grid points' blocks tile the result array and each holds the
  specification's result of the arguments (Proof/KernelValue.lean). The reference's side: its run read stage by
  stage (Proof/RefValue.lean). The three frames are the programs' runs with the value dropped; the idealization
  rewrote nothing, so `preserves` is trivial.
-/
import proofs.«171533_j1915555414708_1_alg».proof.Defs
import proofs.«171533_j1915555414708_1_alg».proof.Proof.Gen.Kernel
import proofs.«171533_j1915555414708_1_alg».proof.Proof.Gen.Kernel.Skeleton
import proofs.«171533_j1915555414708_1_alg».proof.Proof.Gen.Kernel.Launch
import proofs.«171533_j1915555414708_1_alg».proof.Proof.Gen.Kernel.Points
import proofs.«171533_j1915555414708_1_alg».proof.Proof.Gen.Kernel.Frame
import proofs.«171533_j1915555414708_1_alg».proof.Proof.Gen.KernelIdeal
import proofs.«171533_j1915555414708_1_alg».proof.Proof.Gen.KernelIdeal.Skeleton
import proofs.«171533_j1915555414708_1_alg».proof.Proof.Gen.KernelIdeal.Launch
import proofs.«171533_j1915555414708_1_alg».proof.Proof.Gen.KernelIdeal.Points
import proofs.«171533_j1915555414708_1_alg».proof.Proof.Gen.KernelIdeal.Frame
import proofs.«171533_j1915555414708_1_alg».proof.Proof.Gen.ReferenceIdeal
import proofs.«171533_j1915555414708_1_alg».proof.Proof.Gen.Pre_finite_inputs
import proofs.«171533_j1915555414708_1_alg».proof.Proof.Gen.KernelIdeal.Value
import proofs.«171533_j1915555414708_1_alg».proof.Proof.Gen.ReferenceIdeal.Run
import proofs.«171533_j1915555414708_1_alg».proof.Proof.Gen.ReferenceIdeal.Read
import proofs.«171533_j1915555414708_1_alg».proof.Proof.KernelValue
import proofs.«171533_j1915555414708_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the specification's result of the arguments: the kernel's blocks
    assembled, the reference's run read row by row; the arguments agree, so the two arrays are equal. -/
theorem algebraic : Cert.algebraic_KernelIdeal_ReferenceIdeal := by
  intro m ρ m' ρ' _ hagree
  refine ⟨fun c => Cert.KernelIdeal.Whole.resultArr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
